-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x64 : Shape := ⟨2, ![2048, 64]⟩
abbrev S2048x1 : Shape := ⟨2, ![2048, 1]⟩
abbrev S128x64 : Shape := ⟨2, ![128, 64]⟩
abbrev S128x1 : Shape := ⟨2, ![128, 1]⟩
abbrev S1x128x64 : Shape := ⟨3, ![1, 128, 64]⟩
abbrev S128x1x64 : Shape := ⟨3, ![128, 1, 64]⟩
abbrev S128x128x64 : Shape := ⟨3, ![128, 128, 64]⟩
abbrev S128 : Shape := ⟨1, ![128]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x1, .f32⟩
  | .local _ .vmem, ⟨5, _⟩ => ⟨S128x1, .f32⟩
  | .local _ .vmem, ⟨6, _⟩ => ⟨S128x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S1x128x64 : S128x64.ShapeCasts S1x128x64
  shapeCasts_S128x64_S128x1x64 : S128x64.ShapeCasts S128x1x64
  broadcasts_S1x128x64_S128x128x64 : S1x128x64.Broadcasts S128x128x64
  broadcasts_S128x1x64_S128x128x64 : S128x1x64.Broadcasts S128x128x64
  reduces_S128x128x64_S128x64 : S128x128x64.Reduces [1] S128x64
  reduces_S128x64_S128 : S128x64.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S2048x1.size a
  hwx0_2 : ∀ i : grid0.Coords, EltTy.bits .f32 = 32 ∨ (Rect.block (s := S2048x1) S128x1.size (cc0_transform_2 i) (hinb0_2 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x64 : Shape := ⟨2, ![2048, 64]⟩
abbrev S1x2048x64 : Shape := ⟨3, ![1, 2048, 64]⟩
abbrev S2048x1x64 : Shape := ⟨3, ![2048, 1, 64]⟩
abbrev S2048x2048x64 : Shape := ⟨3, ![2048, 2048, 64]⟩
abbrev S_ : Shape := ⟨0, ![]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1x2048x64, .f32⟩
  | .hbm, ⟨2, _⟩ => ⟨S2048x1x64, .f32⟩
  | .hbm, ⟨3, _⟩ => ⟨S2048x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S_, .f32⟩
  | .hbm, ⟨14, _⟩ => ⟨S2048x64, .f32⟩
  | .hbm, ⟨15, _⟩ => ⟨S2048x64, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S2048x64_S1x2048x64_1_2 : S2048x64.BroadcastsInDim S1x2048x64 (![1, 2] : Fin 2 → Fin S1x2048x64.rank)
  bcast_S2048x64_S2048x1x64_0_2 : S2048x64.BroadcastsInDim S2048x1x64 (![0, 2] : Fin 2 → Fin S2048x1x64.rank)
  bcast_S1x2048x64_S2048x2048x64_0_1_2 : S1x2048x64.BroadcastsInDim S2048x2048x64 (![0, 1, 2] : Fin 3 → Fin S2048x2048x64.rank)
  bcast_S2048x1x64_S2048x2048x64_0_1_2 : S2048x1x64.BroadcastsInDim S2048x2048x64 (![0, 1, 2] : Fin 3 → Fin S2048x2048x64.rank)
  reducesTo_S2048x2048x64_S2048x64_d1 : S2048x2048x64.ReducesTo [1] S2048x64
  h_S_ : 0 < S_.numel
  bcast_S_S2048x64 : S_.BroadcastsInDim S2048x64 (![] : Fin 0 → Fin S2048x64.rank)
  reducesTo_S2048x64_S2048_d1 : S2048x64.ReducesTo [1] S2048
  reducesTo_S2048_S_d0 : S2048.ReducesTo [0] S_

variable [Facts₀]

class Facts : Prop extends Facts₀ where

variable [Facts]
-- ==== Proof.KernelRuns.lean ====
/-
  The kernel's pipeline, point by point: what the launch and the three control cases of the body share.
  The grid is 16 × 16, walked row by row; point t = 16·i + j reads the i-th block of 128 rows through window 0 and the
  j-th block through window 1 (both windows on the one argument array), and writes the i-th block of the
  [2048, 1] result through window 2 at j = 15 only. The scratch accumulator is reset at j = 0 and carried between
  points. Here: the contents the region is entered with, @main as the region followed by its four host
  operations, the blocks of the two input windows, the two branch conditions in closed form over the grid, where
  window 2 is idle, and the memrefs the body is called with.
-/
import proofs.«123066_j14422500180352_1_alg».proof.Proof.Gen.Kernel.Launch
import proofs.«123066_j14422500180352_1_alg».proof.Proof.Gen.Kernel.Skeleton
import proofs.«123066_j14422500180352_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by its four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the store of the row sums). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the body stores nothing into window 2 and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of output window 2, through which its contents are stated. -/
abbrev VO0_2 : View sig .tc .vmem S128x1 .f32 := (Memref.whole cc0_stg2_0 : Memref sig .tc .vmem S128x1 .f32).view
abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
/-- The scratch accumulator, a whole scoped buffer of the kernel's own. -/
abbrev scM0_0 : Memref sig .tc .vmem S128x64 .f32 := Memref.whole cc0_scratch0
abbrev VS0_0 : View sig .tc .vmem S128x64 .f32 := scM0_0.view

/-- The scoped buffers no window stages are the scratch accumulator, owned at some contents. -/
theorem scopedRest0_owns (c : Dev nD) :
    (Pipeline.scopedRest spec0 c : sProp 𝕄) = iprop(∃ d, owns (c : Thread nD τ) scM0_0 fullShare d) := by
  rw [scopedRest0_eq]; simp only [scM0_0, owns_whole]; try rfl

end Cert.Kernel.Hand

end
-- ==== Proof.KernelRunA.lean ====
/-
  The body at the first point of a row (j = 0): the accumulator is reset to zero, then the squared differences of the
  two blocks, summed over the second block's rows, are added to it; nothing is stored into the result window.
  The triple is a subtype: the pieces the stores leave in the accumulator are found by running the body.
-/
import proofs.«123066_j14422500180352_1_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator (last first) when the first condition holds and the second
    fails, with the proof that on whole memrefs — the two input blocks at x0 and x1, the result window's buffer at any
    contents handed back untouched, the accumulator at anything — the body runs to the continuation holding the
    inputs as they were and the accumulator with those pieces written. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) :
    { LS0 : List (View.Piece (Elt F) S128x64 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, fun xi2 E K => ?run⟩
  case run =>
    simp only [cc0__mi_kernel_eq_skeleton]; unfold cc0__mi_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelRunB.lean ====
/-
  The body at an inner point of a row (0 < j < 15): the squared differences of the two blocks, summed over the second
  block's rows, are added to the accumulator the point before left; nothing is stored into the result window.
-/
import proofs.«123066_j14422500180352_1_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator when both conditions fail, with the proof that on whole
    memrefs — the input blocks at x0 and x1, the result window's buffer handed back untouched, the accumulator at
    xs0 — the body runs to the continuation holding the inputs as they were and the accumulator with those pieces
    written. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) :
    { LS0 : List (View.Piece (Elt F) S128x64 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, fun xi2 E K => ?run⟩
  case run =>
    simp only [cc0__mi_kernel_eq_skeleton]; unfold cc0__mi_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelRunC.lean ====
/-
  The body at the last point of a row (j = 15): the squared differences are added to the accumulator as before, and
  then the accumulator's sums over its second axis, divided by 4096, are stored into the result window.
-/
import proofs.«123066_j14422500180352_1_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer and in the accumulator when the first condition
    fails and the second holds, with the proof that on whole memrefs — the input blocks at x0 and x1, the result
    window's buffer at anything, the accumulator at xs0 — the body runs to the continuation holding the inputs as they
    were and the two written buffers with their pieces. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) :
    Σ' (L2 : List (View.Piece (Elt F) S128x1 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, ?_, fun E K => ?run⟩
  case run =>
    simp only [cc0__mi_kernel_eq_skeleton]; unfold cc0__mi_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KernelFrame.lean ====
/-
  The kernel's run as a pipeline: what the accumulator and the result window hold after each point, the proof data,
  the body obligation at every point, and the run of @main with its post — the result buffer at the host tail's
  value of the pipeline's output array, the argument array unchanged.
  The two input windows stage the ONE argument array: each holds it at half of the full share, the halves are dealt at
  the region's entry and joined again at its exit, where the four host operations run on whole buffers.
-/
import proofs.«123066_j14422500180352_1_alg».proof.Proof.KernelRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces cover the accumulator. -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) (y : S128x64.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S128x64.size (by sl_kernel_rfl) y

/-- What case A leaves in the accumulator. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) : Vec F S128x64 .f32 :=
  VS0_0.read (Elt F) (VS0_0.writes (Elt F) VS0_0.junk (kernelRun0_A c i arg2 harg2 arg3 harg3 arg4 harg4 arg5 harg5 hc0 hc1 x0 x1).1)

/-- Case B's pieces cover the accumulator. -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) (y : S128x64.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S128x64.size (by sl_kernel_rfl) y

/-- What case B leaves in the accumulator. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) : Vec F S128x64 .f32 :=
  VS0_0.read (Elt F) (VS0_0.writes (Elt F) VS0_0.junk (kernelRun0_B c i arg2 harg2 arg3 harg3 arg4 harg4 arg5 harg5 hc0 hc1 x0 x1 xs0).1)

/-- Case C's pieces for the result window cover its block. -/
theorem cover0_C_2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) (y : S128x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1.size (by sl_kernel_rfl) y

/-- What case C leaves in the result window's buffer. -/
def out0_C_2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) : Vec F S128x1 .f32 :=
  VO0_2.read (Elt F) (VO0_2.writes (Elt F) VO0_2.junk (kernelRun0_C c i arg2 harg2 arg3 harg3 arg4 harg4 arg5 harg5 hc0 hc1 x0 x1 xs0).1)

/-- Case C's pieces cover the accumulator. -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) (y : S128x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x64.size (by sl_kernel_rfl) y

/-- What case C leaves in the accumulator. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) : Vec F S128x64 .f32 :=
  VS0_0.read (Elt F) (VS0_0.writes (Elt F) VS0_0.junk (kernelRun0_C c i arg2 harg2 arg3 harg3 arg4 harg4 arg5 harg5 hc0 hc1 x0 x1 xs0).2.1)

/-- Contents nothing reads: the result window's component at the points where the body stores nothing into it. -/
def outIdle : Vec F S128x1 .f32 := VO0_2.read (Elt F) VO0_2.junk

/-! ## What the result window and the accumulator hold after each point -/

/-- After the body at position n: the result window's buffer and the accumulator. The case is read off n modulo 16; the
    accumulator a later case adds to is what the point before left. -/
def outsAt0 (c : Dev nD) : (n : ℕ) → n < cfg0.N → Vec F S128x1 .f32 × Vec F S128x64 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (outIdle, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (outIdle, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator at anything, afterwards at what
    the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The proof data of the pipeline on core c: the arrays as the region finds them; after the body each input's
    buffer at its block and the result window's at outsAt0; the invariant the accumulator's contents; the argument
    array's full share dealt in halves to the two windows that stage it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; the
    invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · have h1 : ¬t.val % 16 = 15 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The launch: the argument array's full share dealt in halves to the two windows that stage it, the region, the
  halves joined again, the four host operations on whole buffers, and the final memory read.
-/
import proofs.«123066_j14422500180352_1_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The windows' arrays at the proof data's shares, one by one: the argument array twice, at the two halves of the full
    share, and the result array whole. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ,
    share0 m c, share1 m c, share2 m c]

/-- The distinct buffers behind the windows' arrays, one by one. -/
theorem arrBufs_chain (c : Dev nD) (W : (b : Ref sig .tc) → Buf (Elt F) ((c.tc : Thread nD τ).loc b)) :
    (arrBufs spec0 c W : sProp 𝕄)
      = iprop((((c : Thread nD τ).loc main_arg0) ↦{fullShare} W main_arg0) ∗ (((c : Thread nD τ).loc main_v0) ↦{fullShare} W main_v0)) := by
  unfold arrBufs
  rw [show (Finset.univ.image (arrRef spec0) : Finset (Ref sig .tc)) = insert main_arg0 {main_v0} from by decide,
    bigSep_insert (by decide), bigSep_singleton]
  rfl

/-- The buffers behind the arrays, whole, deal the windows' arrays: the argument array's full share in halves. -/
theorem arrays_of_arrBufs (c : Dev nD) (W : (b : Ref sig .tc) → Buf (Elt F) ((c.tc : Thread nD τ).loc b)) :
    (arrBufs spec0 c W : sProp 𝕄) ⊢ (dats m 0 c).arrays (fun w => W (arrRef spec0 w)) := by
  rw [arrBufs_chain, arrays_chain]
  exact (BIClass.sep_mono (pointsTo_share (PosShare.mem_left_op_right fullShare)).1 .rfl).trans sep_assoc.1

/-- And the windows' arrays at one valuation's contents join to the whole buffers again. -/
theorem arrBufs_of_arrays (c : Dev nD) (W : (b : Ref sig .tc) → Buf (Elt F) ((c.tc : Thread nD τ).loc b)) :
    (dats m 0 c).arrays (fun w => W (arrRef spec0 w)) ⊢ (arrBufs spec0 c W : sProp 𝕄) := by
  rw [arrBufs_chain, arrays_chain]
  exact sep_assoc.2.trans (BIClass.sep_mono (pointsTo_share (PosShare.mem_left_op_right fullShare)).2 .rfl)

/-! ## The buffers' contents at the region's exit and after the host operations -/

/-- What the core's buffers hold when the region is left: the result array as the write-backs leave it, every other
    buffer as the region found it. -/
def Wexit (c : Dev nD) : Valuation τ sig (Elt F) :=
  Function.update (V0 m c) (Proc.devRef .tc main_v0) ((dats m 0 c).arrAt 2 cfg0.N)

/-- And after the four host operations. -/
def Wfin (c : Dev nD) : Valuation τ sig (Elt F) := StableHlo.after hostOps1 (Wexit m c)

theorem Wexit_rest (c : Dev nD) (b : Ref sig .tc) (hb : b ≠ main_v0) : Wexit m c (Proc.devRef .tc b) = V m c b :=
  Function.update_of_ne (StableHlo.devRef_ne_of_ne hb) _ _

theorem Wexit_arr (c : Dev nD) (w : Fin cfg0.W) :
    Wexit m c (Proc.devRef .tc (arrRef spec0 w)) = (dats m 0 c).arrAt w cfg0.N := by
  match w with
  | ⟨0, _⟩ => exact (Wexit_rest m c main_arg0 (by decide)).trans ((dats m 0 c).arrAt_in 0 rfl cfg0.N).symm
  | ⟨1, _⟩ => exact (Wexit_rest m c main_arg0 (by decide)).trans ((dats m 0 c).arrAt_in 1 rfl cfg0.N).symm
  | ⟨2, _⟩ => exact Function.update_self _ _ _

/-- The host operations write no array of the pipeline. -/
theorem tail_keeps : ∀ op ∈ (hostOps1 : List (HloOp τ sig (Elt F))), ∀ w : Fin cfg0.W, Proc.devRef .tc (arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wfin_arr (c : Dev nD) (w : Fin cfg0.W) :
    Wfin m c (Proc.devRef .tc (arrRef spec0 w)) = (dats m 0 c).arrAt w cfg0.N := by
  unfold Wfin
  rw [StableHlo.after_of_forall_not_mem _ _ fun op hop => tail_keeps op hop w]
  exact Wexit_arr m c w

/-- At the region's exit the windows' arrays and the buffers that bypassed the region are the core's unscoped buffers,
    whole, at the exit contents. -/
theorem exit_join (c : Dev nD) :
    iprop((dats m 0 c).arrays ((dats m 0 c).arrAt · cfg0.N) ∗ unscopedRest spec0 c (V m c))
      ⊢ (StableHlo.held (c.tc : Thread nD τ) (ucRefs τ sig) (Wexit m c) : sProp 𝕄) := by
  rw [← unscopedBufs_held (Ix := Unit) (Name := ℕ) (U := UR sig nD τ) (Lvl := ℕ) c (Wexit m c),
    unscopedBufs_split₀ cfgs 0 winFacts₀0.arr_unscoped c]
  refine BIClass.sep_mono ?_ ?_
  · refine (Entails.of_eq ?_).trans (arrBufs_of_arrays m c _)
    exact congrArg _ (funext fun w => (Wexit_arr m c w).symm)
  · exact Entails.of_eq (bigSep_congr fun b hb => by
      dsimp only
      rw [Wexit_rest m c b fun e =>
        (Finset.mem_sdiff.mp hb).2 (e ▸ Finset.mem_image.mpr ⟨2, Finset.mem_univ _, rfl⟩)])

/-- After the host operations the unscoped buffers, whole, deal the windows' arrays again — unchanged by the
    operations — and the buffers the operations wrote. -/
theorem fin_split (c : Dev nD) :
    (StableHlo.held (c.tc : Thread nD τ) (ucRefs τ sig) (Wfin m c) : sProp 𝕄)
      ⊢ iprop((dats m 0 c).arrays ((dats m 0 c).arrAt · cfg0.N) ∗ unscopedRest spec0 c (fun b => Wfin m c (Proc.devRef .tc b))) := by
  rw [← unscopedBufs_held (Ix := Unit) (Name := ℕ) (U := UR sig nD τ) (Lvl := ℕ) c (Wfin m c),
    unscopedBufs_split₀ cfgs 0 winFacts₀0.arr_unscoped c]
  refine BIClass.sep_mono ((arrays_of_arrBufs m c _).trans (Entails.of_eq ?_)) .rfl
  exact congrArg _ (funext fun w => Wfin_arr m c w)

/-! ## The host operations after the region -/

theorem tail_sub : ∀ op ∈ (hostOps1 : List (HloOp τ sig (Elt F))), op.bufs ⊆ ucRefs τ sig :=
  fun op hop => sub_ucRefs op ((List.forall_iff_forall_mem.mp hostOps1_sub) op hop)
theorem tail_fresh : ∀ op ∈ (hostOps1 : List (HloOp τ sig (Elt F))), op.fresh = ∅ :=
  fun op hop => (List.forall_iff_forall_mem.mp hostOps1_fresh) op hop

set_option backward.isDefEq.respectTransparency.types false in
/-- From the region's exit — the windows' arrays at their final contents, the bypassing buffers as the region found
    them — the four host operations run on the whole buffers and hand back the arrays unchanged and the bypassing
    buffers at the operations' results. -/
theorem htail (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift Variants.none) (c.tc : Thread nD τ) none) Set.univ (chain [StableHlo.seq hostOps1]) Q' := by
  rw [unscopedRestP_none, unscopedRestP_none]
  simp only [chain_cons, chain_nil]
  iintro ⟨Hk, Hb, Ha, HZ⟩
  ihave Hu := (exit_join m c) $$ [Ha HZ]
  · isplitl [Ha] <;> iassumption
  iapply (StableHlo.wp_seq (Variants.lift Variants.none) none Set.univ c (ucRefs τ sig) _ hostOps1 tail_sub tail_fresh (Wexit m c)) $$ [Hb Hu]
  · isplitl [Hb] <;> iassumption
  iintro Hb
  rw [wp_pure]
  imodintro
  iapply Hk
  icases Hb with ⟨-, H⟩
  iapply (fin_split m c); iexact H

/-! ## The run -/

theorem cells_inj : Function.Injective (cellOf (nD := nD) (τ := τ) (pin (fun q => (cfgs q).toPCfg (Val := Elt F)) (fun q => (cfgs q).toPCfg_adm))) :=
  cellOf_inj

set_option backward.isDefEq.respectTransparency.types false in
/-- At the compiled mesh, from any memory with zero counters: every weakly fair execution of @main terminates, the
    result buffer at the host operations' value of the pipeline's output array and the argument array unchanged. -/
theorem run_main : θ_run defs (onTc (τ := τ) (main (F := F))) ⟨m, fun _ => 0, ρ⟩ (fun r => ∀ c : Dev nD,
      r.2.mem ((c.tc : Thread nD τ).loc main_v2) = Wfin m c (Proc.devRef .tc main_v2)
      ∧ r.2.mem ((c.tc : Thread nD τ).loc main_arg0) = m ((c.tc : Thread nD τ).loc main_arg0)) := by
  classical
  exact Pipeline.θ_run_region_noSem_pf_tail (fun q => (cfgs q).toPCfg (Val := Elt F)) (fun q => (cfgs q).toPCfg_adm) (dats m) () cells_inj (0 : Fin 1)
    winFacts₀0 (PreFacts.none _) emb₁ defs₀ Variants.none m ρ main (fun _ => chain [StableHlo.seq hostOps1])
    (hbody := fun c => (body_obligation m c).loose)
    (hne := block_pos0) (harr := arr_whole0) (hstage := stage_whole0) (howed := fun _ _ => rfl)
    (u₀ := initOf (cells (pin (fun q => (cfgs q).toPCfg (Val := Elt F)) (fun q => (cfgs q).toPCfg_adm)) cells_inj) (launchToks (pin (fun q => (cfgs q).toPCfg (Val := Elt F)) (fun q => (cfgs q).toPCfg_adm)) cells_inj))
    (hu₀ := .rfl)
    (V := V m) (hmain := hmain m Variants.none)
    (hsplit := fun c => arrays_of_arrBufs m c (V m c))
    (hpf := fun _ k => k.elim0)
    (X := fun _ => iprop(emp)) (Y := fun _ => iprop(emp))
    (Z := fun c => unscopedRestP Prefetch.none spec0 c (V m c))
    (Z' := fun c => unscopedRestP Prefetch.none spec0 c (fun b => Wfin m c (Proc.devRef .tc b)))
    (hX := fun c => by
      iintro H
      isplitr; · iempintro
      iexact H)
    (hin := fun c => by
      rw [show (dats m 0 c).Φ 0 = PhiS m c 0 (Nat.zero_le _) from rfl, PhiS_zero m c 0 _ rfl, ← scopedRest0_owns]
      iintro ⟨-, -, H⟩; iexact H)
    (hout := fun c => by
      rw [show (dats m 0 c).Φ (Fin.last cfg0.N) = PhiS m c cfg0.N (le_refl _) from rfl,
        PhiS_pos m c _ _ (by rw [show cfg0.N = 256 from N_0]; decide), scopedRest0_owns]
      iintro H
      isplitr; · iempintro
      iexists _; iexact H)
    (htail := htail m)
    (QY := fun c s => ∀ b ∈ restRefsP sig Prefetch.none spec0, s.mem ((c.tc : Thread nD τ).loc b) = Wfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => ⟨(h c).2.2 main_v2 (by decide), ((h c).1 0).trans (((dats m 0 c).arrAt_in 0 rfl _).trans ((A_eq m c 0).trans (V_main_arg0 m c)))⟩)

/-- The result buffer's final contents: the output array summed over both axes from zero and divided by 2048. -/
theorem Wfin_v2 (c : Dev nD) :
    Wfin m c (Proc.devRef .tc main_v2)
      = Host.divf (Host.reduceAdd ((dats m 0 c).arrAt 2 cfg0.N) (constant (F := F) S_ .f32 0x00000000#32) Facts₀.reducesTo_S2048x1_S_d0_1 Facts₀.h_S_)
          (constant (F := F) S_ .f32 0x45000000#32) := by
  unfold Wfin
  show StableHlo.after hostOps1 (Wexit m c) (Proc.devRef .tc main_v2) = _
  after_results
  rw [show Wexit m c (Proc.devRef .tc main_v0) = (dats m 0 c).arrAt 2 cfg0.N from Wexit_arr m c 2]

end Cert.Kernel.Hand

end
-- ==== Proof.KernelIdealRuns.lean ====
/-
  The kernel's pipeline, point by point: what the launch and the three control cases of the body share.
  The grid is 16 × 16, walked row by row; point t = 16·i + j reads the i-th block of 128 rows through window 0 and the
  j-th block through window 1 (both windows on the one argument array), and writes the i-th block of the
  [2048, 1] result through window 2 at j = 15 only. The scratch accumulator is reset at j = 0 and carried between
  points. Here: the contents the region is entered with, @main as the region followed by its four host
  operations, the blocks of the two input windows, the two branch conditions in closed form over the grid, where
  window 2 is idle, and the memrefs the body is called with.
-/
import proofs.«123066_j14422500180352_1_alg».proof.Proof.Gen.KernelIdeal.Launch
import proofs.«123066_j14422500180352_1_alg».proof.Proof.Gen.KernelIdeal.Skeleton
import proofs.«123066_j14422500180352_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by its four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the store of the row sums). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the body stores nothing into window 2 and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of output window 2, through which its contents are stated. -/
abbrev VO0_2 : View sig .tc .vmem S128x1 .f32 := (Memref.whole cc0_stg2_0 : Memref sig .tc .vmem S128x1 .f32).view
abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
/-- The scratch accumulator, a whole scoped buffer of the kernel's own. -/
abbrev scM0_0 : Memref sig .tc .vmem S128x64 .f32 := Memref.whole cc0_scratch0
abbrev VS0_0 : View sig .tc .vmem S128x64 .f32 := scM0_0.view

/-- The scoped buffers no window stages are the scratch accumulator, owned at some contents. -/
theorem scopedRest0_owns (c : Dev nD) :
    (Pipeline.scopedRest spec0 c : sProp 𝕄) = iprop(∃ d, owns (c : Thread nD τ) scM0_0 fullShare d) := by
  rw [scopedRest0_eq]; simp only [scM0_0, owns_whole]; try rfl

end Cert.KernelIdeal.Hand

end
-- ==== Proof.KernelIdealRunA.lean ====
/-
  The body at the first point of a row (j = 0): the accumulator is reset to zero, then the squared differences of the
  two blocks, summed over the second block's rows, are added to it; nothing is stored into the result window.
  The triple is a subtype: the pieces the stores leave in the accumulator are found by running the body.
-/
import proofs.«123066_j14422500180352_1_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator (last first) when the first condition holds and the second
    fails, with the proof that on whole memrefs — the two input blocks at x0 and x1, the result window's buffer at any
    contents handed back untouched, the accumulator at anything — the body runs to the continuation holding the
    inputs as they were and the accumulator with those pieces written. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) :
    { LS0 : List (View.Piece (Elt F) S128x64 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, fun xi2 E K => ?run⟩
  case run =>
    simp only [cc0__mi_kernel_eq_skeleton]; unfold cc0__mi_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealRunB.lean ====
/-
  The body at an inner point of a row (0 < j < 15): the squared differences of the two blocks, summed over the second
  block's rows, are added to the accumulator the point before left; nothing is stored into the result window.
-/
import proofs.«123066_j14422500180352_1_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator when both conditions fail, with the proof that on whole
    memrefs — the input blocks at x0 and x1, the result window's buffer handed back untouched, the accumulator at
    xs0 — the body runs to the continuation holding the inputs as they were and the accumulator with those pieces
    written. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) :
    { LS0 : List (View.Piece (Elt F) S128x64 .f32) //
      ∀ (xi2 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, fun xi2 E K => ?run⟩
  case run =>
    simp only [cc0__mi_kernel_eq_skeleton]; unfold cc0__mi_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealRunC.lean ====
/-
  The body at the last point of a row (j = 15): the squared differences are added to the accumulator as before, and
  then the accumulator's sums over its second axis, divided by 4096, are stored into the result window.
-/
import proofs.«123066_j14422500180352_1_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer and in the accumulator when the first condition
    fails and the second holds, with the proof that on whole memrefs — the input blocks at x0 and x1, the result
    window's buffer at anything, the accumulator at xs0 — the body runs to the continuation holding the inputs as they
    were and the two written buffers with their pieces. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) :
    Σ' (L2 : List (View.Piece (Elt F) S128x1 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mi_kernel i arg2 harg2 arg3 harg3 arg4 harg4 arg5 harg5) K } := by
  refine ⟨?_, ?_, fun E K => ?run⟩
  case run =>
    simp only [cc0__mi_kernel_eq_skeleton]; unfold cc0__mi_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdealFrame.lean ====
/-
  The kernel's run as a pipeline: what the accumulator and the result window hold after each point, the proof data,
  the body obligation at every point, and the run of @main with its post — the result buffer at the host tail's
  value of the pipeline's output array, the argument array unchanged.
  The two input windows stage the ONE argument array: each holds it at half of the full share, the halves are dealt at
  the region's entry and joined again at its exit, where the four host operations run on whole buffers.
-/
import proofs.«123066_j14422500180352_1_alg».proof.Proof.KernelIdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces cover the accumulator. -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) (y : S128x64.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S128x64.size (by sl_kernel_rfl) y

/-- What case A leaves in the accumulator. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i)
    (x0 : Vec F S128x64 .f32) (x1 : Vec F S128x64 .f32) : Vec F S128x64 .f32 :=
  VS0_0.read (Elt F) (VS0_0.writes (Elt F) VS0_0.junk (kernelRun0_A c i arg2 harg2 arg3 harg3 arg4 harg4 arg5 harg5 hc0 hc1 x0 x1).1)

/-- Case B's pieces cover the accumulator. -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) (y : S128x64.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S128x64.size (by sl_kernel_rfl) y

/-- What case B leaves in the accumulator. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i)
    (x0 : Vec F S128x64 .f32) (x1 : Vec F S128x64 .f32) (xs0 : Vec F S128x64 .f32) : Vec F S128x64 .f32 :=
  VS0_0.read (Elt F) (VS0_0.writes (Elt F) VS0_0.junk (kernelRun0_B c i arg2 harg2 arg3 harg3 arg4 harg4 arg5 harg5 hc0 hc1 x0 x1 xs0).1)

/-- Case C's pieces for the result window cover its block. -/
theorem cover0_C_2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) (y : S128x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S128x1.size (by sl_kernel_rfl) y

/-- What case C leaves in the result window's buffer. -/
def out0_C_2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) : Vec F S128x1 .f32 :=
  VO0_2.read (Elt F) (VO0_2.writes (Elt F) VO0_2.junk (kernelRun0_C c i arg2 harg2 arg3 harg3 arg4 harg4 arg5 harg5 hc0 hc1 x0 x1 xs0).1)

/-- Case C's pieces cover the accumulator. -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) (y : S128x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x64.size (by sl_kernel_rfl) y

/-- What case C leaves in the accumulator. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i)
    (x0 : Vec F S128x64 .f32) (x1 : Vec F S128x64 .f32) (xs0 : Vec F S128x64 .f32) : Vec F S128x64 .f32 :=
  VS0_0.read (Elt F) (VS0_0.writes (Elt F) VS0_0.junk (kernelRun0_C c i arg2 harg2 arg3 harg3 arg4 harg4 arg5 harg5 hc0 hc1 x0 x1 xs0).2.1)

/-- Contents nothing reads: the result window's component at the points where the body stores nothing into it. -/
def outIdle : Vec F S128x1 .f32 := VO0_2.read (Elt F) VO0_2.junk

/-! ## What the result window and the accumulator hold after each point -/

/-- After the body at position n: the result window's buffer and the accumulator. The case is read off n modulo 16; the
    accumulator a later case adds to is what the point before left. -/
def outsAt0 (c : Dev nD) : (n : ℕ) → n < cfg0.N → Vec F S128x1 .f32 × Vec F S128x64 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (outIdle, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (outIdle, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator at anything, afterwards at what
    the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The proof data of the pipeline on core c: the arrays as the region finds them; after the body each input's
    buffer at its block and the result window's at outsAt0; the invariant the accumulator's contents; the argument
    array's full share dealt in halves to the two windows that stage it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the point is in; the
    invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · have h1 : ¬t.val % 16 = 15 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The launch: the argument array's full share dealt in halves to the two windows that stage it, the region, the
  halves joined again, the four host operations on whole buffers, and the final memory read.
-/
import proofs.«123066_j14422500180352_1_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The windows' arrays at the proof data's shares, one by one: the argument array twice, at the two halves of the full
    share, and the result array whole. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ,
    share0 m c, share1 m c, share2 m c]

/-- The distinct buffers behind the windows' arrays, one by one. -/
theorem arrBufs_chain (c : Dev nD) (W : (b : Ref sig .tc) → Buf (Elt F) ((c.tc : Thread nD τ).loc b)) :
    (arrBufs spec0 c W : sProp 𝕄)
      = iprop((((c : Thread nD τ).loc main_arg0) ↦{fullShare} W main_arg0) ∗ (((c : Thread nD τ).loc main_v0) ↦{fullShare} W main_v0)) := by
  unfold arrBufs
  rw [show (Finset.univ.image (arrRef spec0) : Finset (Ref sig .tc)) = insert main_arg0 {main_v0} from by decide,
    bigSep_insert (by decide), bigSep_singleton]
  rfl

/-- The buffers behind the arrays, whole, deal the windows' arrays: the argument array's full share in halves. -/
theorem arrays_of_arrBufs (c : Dev nD) (W : (b : Ref sig .tc) → Buf (Elt F) ((c.tc : Thread nD τ).loc b)) :
    (arrBufs spec0 c W : sProp 𝕄) ⊢ (dats m 0 c).arrays (fun w => W (arrRef spec0 w)) := by
  rw [arrBufs_chain, arrays_chain]
  exact (BIClass.sep_mono (pointsTo_share (PosShare.mem_left_op_right fullShare)).1 .rfl).trans sep_assoc.1

/-- And the windows' arrays at one valuation's contents join to the whole buffers again. -/
theorem arrBufs_of_arrays (c : Dev nD) (W : (b : Ref sig .tc) → Buf (Elt F) ((c.tc : Thread nD τ).loc b)) :
    (dats m 0 c).arrays (fun w => W (arrRef spec0 w)) ⊢ (arrBufs spec0 c W : sProp 𝕄) := by
  rw [arrBufs_chain, arrays_chain]
  exact sep_assoc.2.trans (BIClass.sep_mono (pointsTo_share (PosShare.mem_left_op_right fullShare)).2 .rfl)

/-! ## The buffers' contents at the region's exit and after the host operations -/

/-- What the core's buffers hold when the region is left: the result array as the write-backs leave it, every other
    buffer as the region found it. -/
def Wexit (c : Dev nD) : Valuation τ sig (Elt F) :=
  Function.update (V0 m c) (Proc.devRef .tc main_v0) ((dats m 0 c).arrAt 2 cfg0.N)

/-- And after the four host operations. -/
def Wfin (c : Dev nD) : Valuation τ sig (Elt F) := StableHlo.after hostOps1 (Wexit m c)

theorem Wexit_rest (c : Dev nD) (b : Ref sig .tc) (hb : b ≠ main_v0) : Wexit m c (Proc.devRef .tc b) = V m c b :=
  Function.update_of_ne (StableHlo.devRef_ne_of_ne hb) _ _

theorem Wexit_arr (c : Dev nD) (w : Fin cfg0.W) :
    Wexit m c (Proc.devRef .tc (arrRef spec0 w)) = (dats m 0 c).arrAt w cfg0.N := by
  match w with
  | ⟨0, _⟩ => exact (Wexit_rest m c main_arg0 (by decide)).trans ((dats m 0 c).arrAt_in 0 rfl cfg0.N).symm
  | ⟨1, _⟩ => exact (Wexit_rest m c main_arg0 (by decide)).trans ((dats m 0 c).arrAt_in 1 rfl cfg0.N).symm
  | ⟨2, _⟩ => exact Function.update_self _ _ _

/-- The host operations write no array of the pipeline. -/
theorem tail_keeps : ∀ op ∈ (hostOps1 : List (HloOp τ sig (Elt F))), ∀ w : Fin cfg0.W, Proc.devRef .tc (arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wfin_arr (c : Dev nD) (w : Fin cfg0.W) :
    Wfin m c (Proc.devRef .tc (arrRef spec0 w)) = (dats m 0 c).arrAt w cfg0.N := by
  unfold Wfin
  rw [StableHlo.after_of_forall_not_mem _ _ fun op hop => tail_keeps op hop w]
  exact Wexit_arr m c w

/-- At the region's exit the windows' arrays and the buffers that bypassed the region are the core's unscoped buffers,
    whole, at the exit contents. -/
theorem exit_join (c : Dev nD) :
    iprop((dats m 0 c).arrays ((dats m 0 c).arrAt · cfg0.N) ∗ unscopedRest spec0 c (V m c))
      ⊢ (StableHlo.held (c.tc : Thread nD τ) (ucRefs τ sig) (Wexit m c) : sProp 𝕄) := by
  rw [← unscopedBufs_held (Ix := Unit) (Name := ℕ) (U := UR sig nD τ) (Lvl := ℕ) c (Wexit m c),
    unscopedBufs_split₀ cfgs 0 winFacts₀0.arr_unscoped c]
  refine BIClass.sep_mono ?_ ?_
  · refine (Entails.of_eq ?_).trans (arrBufs_of_arrays m c _)
    exact congrArg _ (funext fun w => (Wexit_arr m c w).symm)
  · exact Entails.of_eq (bigSep_congr fun b hb => by
      dsimp only
      rw [Wexit_rest m c b fun e =>
        (Finset.mem_sdiff.mp hb).2 (e ▸ Finset.mem_image.mpr ⟨2, Finset.mem_univ _, rfl⟩)])

/-- After the host operations the unscoped buffers, whole, deal the windows' arrays again — unchanged by the
    operations — and the buffers the operations wrote. -/
theorem fin_split (c : Dev nD) :
    (StableHlo.held (c.tc : Thread nD τ) (ucRefs τ sig) (Wfin m c) : sProp 𝕄)
      ⊢ iprop((dats m 0 c).arrays ((dats m 0 c).arrAt · cfg0.N) ∗ unscopedRest spec0 c (fun b => Wfin m c (Proc.devRef .tc b))) := by
  rw [← unscopedBufs_held (Ix := Unit) (Name := ℕ) (U := UR sig nD τ) (Lvl := ℕ) c (Wfin m c),
    unscopedBufs_split₀ cfgs 0 winFacts₀0.arr_unscoped c]
  refine BIClass.sep_mono ((arrays_of_arrBufs m c _).trans (Entails.of_eq ?_)) .rfl
  exact congrArg _ (funext fun w => Wfin_arr m c w)

/-! ## The host operations after the region -/

theorem tail_sub : ∀ op ∈ (hostOps1 : List (HloOp τ sig (Elt F))), op.bufs ⊆ ucRefs τ sig :=
  fun op hop => sub_ucRefs op ((List.forall_iff_forall_mem.mp hostOps1_sub) op hop)
theorem tail_fresh : ∀ op ∈ (hostOps1 : List (HloOp τ sig (Elt F))), op.fresh = ∅ :=
  fun op hop => (List.forall_iff_forall_mem.mp hostOps1_fresh) op hop

set_option backward.isDefEq.respectTransparency.types false in
/-- From the region's exit — the windows' arrays at their final contents, the bypassing buffers as the region found
    them — the four host operations run on the whole buffers and hand back the arrays unchanged and the bypassing
    buffers at the operations' results. -/
theorem htail (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift Variants.none) (c.tc : Thread nD τ) none) Set.univ (chain [StableHlo.seq hostOps1]) Q' := by
  rw [unscopedRestP_none, unscopedRestP_none]
  simp only [chain_cons, chain_nil]
  iintro ⟨Hk, Hb, Ha, HZ⟩
  ihave Hu := (exit_join m c) $$ [Ha HZ]
  · isplitl [Ha] <;> iassumption
  iapply (StableHlo.wp_seq (Variants.lift Variants.none) none Set.univ c (ucRefs τ sig) _ hostOps1 tail_sub tail_fresh (Wexit m c)) $$ [Hb Hu]
  · isplitl [Hb] <;> iassumption
  iintro Hb
  rw [wp_pure]
  imodintro
  iapply Hk
  icases Hb with ⟨-, H⟩
  iapply (fin_split m c); iexact H

/-! ## The run -/

theorem cells_inj : Function.Injective (cellOf (nD := nD) (τ := τ) (pin (fun q => (cfgs q).toPCfg (Val := Elt F)) (fun q => (cfgs q).toPCfg_adm))) :=
  cellOf_inj

set_option backward.isDefEq.respectTransparency.types false in
/-- At the compiled mesh, from any memory with zero counters: every weakly fair execution of @main terminates, the
    result buffer at the host operations' value of the pipeline's output array and the argument array unchanged. -/
theorem run_main : θ_run defs (onTc (τ := τ) (main (F := F))) ⟨m, fun _ => 0, ρ⟩ (fun r => ∀ c : Dev nD,
      r.2.mem ((c.tc : Thread nD τ).loc main_v2) = Wfin m c (Proc.devRef .tc main_v2)
      ∧ r.2.mem ((c.tc : Thread nD τ).loc main_arg0) = m ((c.tc : Thread nD τ).loc main_arg0)) := by
  classical
  exact Pipeline.θ_run_region_noSem_pf_tail (fun q => (cfgs q).toPCfg (Val := Elt F)) (fun q => (cfgs q).toPCfg_adm) (dats m) () cells_inj (0 : Fin 1)
    winFacts₀0 (PreFacts.none _) emb₁ defs₀ Variants.none m ρ main (fun _ => chain [StableHlo.seq hostOps1])
    (hbody := fun c => (body_obligation m c).loose)
    (hne := block_pos0) (harr := arr_whole0) (hstage := stage_whole0) (howed := fun _ _ => rfl)
    (u₀ := initOf (cells (pin (fun q => (cfgs q).toPCfg (Val := Elt F)) (fun q => (cfgs q).toPCfg_adm)) cells_inj) (launchToks (pin (fun q => (cfgs q).toPCfg (Val := Elt F)) (fun q => (cfgs q).toPCfg_adm)) cells_inj))
    (hu₀ := .rfl)
    (V := V m) (hmain := hmain m Variants.none)
    (hsplit := fun c => arrays_of_arrBufs m c (V m c))
    (hpf := fun _ k => k.elim0)
    (X := fun _ => iprop(emp)) (Y := fun _ => iprop(emp))
    (Z := fun c => unscopedRestP Prefetch.none spec0 c (V m c))
    (Z' := fun c => unscopedRestP Prefetch.none spec0 c (fun b => Wfin m c (Proc.devRef .tc b)))
    (hX := fun c => by
      iintro H
      isplitr; · iempintro
      iexact H)
    (hin := fun c => by
      rw [show (dats m 0 c).Φ 0 = PhiS m c 0 (Nat.zero_le _) from rfl, PhiS_zero m c 0 _ rfl, ← scopedRest0_owns]
      iintro ⟨-, -, H⟩; iexact H)
    (hout := fun c => by
      rw [show (dats m 0 c).Φ (Fin.last cfg0.N) = PhiS m c cfg0.N (le_refl _) from rfl,
        PhiS_pos m c _ _ (by rw [show cfg0.N = 256 from N_0]; decide), scopedRest0_owns]
      iintro H
      isplitr; · iempintro
      iexists _; iexact H)
    (htail := htail m)
    (QY := fun c s => ∀ b ∈ restRefsP sig Prefetch.none spec0, s.mem ((c.tc : Thread nD τ).loc b) = Wfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => ⟨(h c).2.2 main_v2 (by decide), ((h c).1 0).trans (((dats m 0 c).arrAt_in 0 rfl _).trans ((A_eq m c 0).trans (V_main_arg0 m c)))⟩)

/-- The result buffer's final contents: the output array summed over both axes from zero and divided by 2048. -/
theorem Wfin_v2 (c : Dev nD) :
    Wfin m c (Proc.devRef .tc main_v2)
      = Host.divf (Host.reduceAdd ((dats m 0 c).arrAt 2 cfg0.N) (constant (F := F) S_ .f32 0x00000000#32) Facts₀.reducesTo_S2048x1_S_d0_1 Facts₀.h_S_)
          (constant (F := F) S_ .f32 0x45000000#32) := by
  unfold Wfin
  show StableHlo.after hostOps1 (Wexit m c) (Proc.devRef .tc main_v2) = _
  after_results
  rw [show Wexit m c (Proc.devRef .tc main_v0) = (dats m 0 c).arrAt 2 cfg0.N from Wexit_arr m c 2]

end Cert.KernelIdeal.Hand

end
-- ==== Proof.KernelIdealOut.lean ====
/-
  The result array after the run, at the ideal values, from what each write-back point leaves: the result window is
  written back at the points t with t % 16 = 15, point t's block is rows 128·(t / 16) … 128·(t / 16) + 127 of the
  [2048, 1] result, and these sixteen blocks cover it. If each write-back point leaves g at its rows, the array ends
  holding g at every row.
-/
import proofs.«123066_j14422500180352_1_alg».proof.Proof.KernelIdealFrame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The result window's block index at point t: block row t / 16, block column 0. -/
theorem idx_facts2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The [2048, 1] array that holds g at every row. -/
abbrev Gout (g : ℕ → ℝ) : S2048x1.Idx → Elt Ideal .f32 := fun idx => ((g (idx 0).val : ℝ) : EReal)

/-- What a write-back point writes back is its block of that array. -/
theorem flushed2_eq (m : (ℓ : Loc nD τ sig) → Buf (Elt Ideal) ℓ) (c : Dev nD) (g : ℕ → ℝ)
    (hfl : ∀ (t : Fin cfg0.N), t.val % 16 = 15 → ∀ (p : Fin 128) (z : Fin 1),
      (outsAt0 m c t.val t.isLt).1 (ValueIdx.ix2 p z) = ((g (128 * (t.val / 16) + p.val) : ℝ) : EReal))
    (t : Fin cfg0.N) (hf : (cfg0.win 2).flush t = true) :
    (dats (F := Ideal) m 0 c).flushed 2 t = ((cfg0.win 2).blk t).view.read (Elt Ideal) (Gout g) := by
  have h15 : t.val % 16 = 15 := (flush0_2 t).mp hf
  obtain ⟨e0, e1⟩ := idx_facts2 t
  have key : ∀ y : S128x1.Idx, (outsAt0 m c t.val t.isLt).1 y = ((g (128 * (t.val / 16) + (y 0).val) : ℝ) : EReal) :=
    fun y => (congrArg _ (ValueIdx.eq_ix2 y)).trans (hfl t h15 (y 0) (y 1))
  show (cfg0.win 2).cut (grid0.coords t) ((dats m 0 c).after 2 t) = _
  rw [after0_2]
  funext j
  rw [View.read_apply]
  show (outsAt0 m c t.val t.isLt).1 ((cfg0.win 2).xinj (grid0.coords t) j) = Gout g (((cfg0.win 2).blk t).view.emb j)
  rw [key]
  refine congrArg (fun k : ℕ => ((g k : ℝ) : EReal)) ?_
  show 128 * (t.val / 16) + (j 0).val = win0_2.index t (0 : Fin 2) * 128 + 1 * (j 0).val
  rw [e0]; omega

/-- An index of the result array is in point t's block iff each coordinate is in the block's range on its axis. -/
theorem mem_blk2 (t : Fin cfg0.N) (i : S2048x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0).slice (win0_2.rect t)).set ↔ _
  rw [View.set_slice_whole, Rect.mem_set_unit]
  exact Iff.rfl

/-- Every row of the result is in the block of a write-back point: row i in that of the point 16·(i / 128) + 15. -/
theorem cover2 (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 256 := N_0
  let t : Fin cfg0.N := ⟨16 * ((i 0).val / 128) + 15, by rw [hN]; omega⟩
  have htv : t.val = 16 * ((i 0).val / 128) + 15 := rfl
  obtain ⟨e0, e1⟩ := idx_facts2 t
  refine ⟨t, (flush0_2 t).mpr (by rw [htv]; omega), ?_⟩
  rw [mem_blk2]
  intro a
  match a with
  | ⟨0, _⟩ =>
    show win0_2.index t (0 : Fin 2) * 128 ≤ (i 0).val ∧ (i 0).val < win0_2.index t (0 : Fin 2) * 128 + 128
    rw [e0, htv]; omega
  | ⟨1, _⟩ =>
    show win0_2.index t (1 : Fin 2) * 1 ≤ (i 1).val ∧ (i 1).val < win0_2.index t (1 : Fin 2) * 1 + 1
    rw [e1]; omega

/-- The result array after the run: g at every row, when every write-back point leaves g at its rows. -/
theorem out_array (m : (ℓ : Loc nD τ sig) → Buf (Elt Ideal) ℓ) (c : Dev nD) (g : ℕ → ℝ)
    (hfl : ∀ (t : Fin cfg0.N), t.val % 16 = 15 → ∀ (p : Fin 128) (z : Fin 1),
      (outsAt0 m c t.val t.isLt).1 (ValueIdx.ix2 p z) = ((g (128 * (t.val / 16) + p.val) : ℝ) : EReal))
    (i : Fin 2048) (z : Fin 1) :
    (dats (F := Ideal) m 0 c).arrAt 2 cfg0.N (ValueIdx.ix2 i z) = ((g i.val : ℝ) : EReal) := by
  have h := (dats (F := Ideal) m 0 c).arrAt_eq_of_cover 2 (Gout g) (fun t hf => flushed2_eq m c g hfl t hf) cover2
  exact congrFun h (ValueIdx.ix2 i z)

end Cert.KernelIdeal.Hand

end
-- ==== Proof.Spec.lean ====
/-
  The quantity both programs compute, over the reals. For samples r : 2048 × 64, S r i d is the sum over j of the
  squared difference (r j d - r i d)², and T r is the mean over i of (Σ_d S r i d) / (2 · 2048).
-/
import Mathlib.Algebra.BigOperators.Ring.Finset
import Mathlib.Algebra.BigOperators.Field
import Mathlib.Data.Real.Basic
import Mathlib.Tactic.Ring
import Mathlib.Tactic.FieldSimp

open scoped BigOperators

noncomputable section

namespace Cert.Spec

/-- The sum over all samples j of the squared difference to sample i, in coordinate d. -/
def S (r : Fin 2048 → Fin 64 → ℝ) (i : Fin 2048) (d : Fin 64) : ℝ :=
  ∑ j : Fin 2048, (r j d - r i d) * (r j d - r i d)

/-- The samples read at a natural row number (zero beyond the last row). -/
def rAt (r : Fin 2048 → Fin 64 → ℝ) (k : ℕ) (q : Fin 64) : ℝ := if h : k < 2048 then r ⟨k, h⟩ q else 0

theorem rAt_of_lt (r : Fin 2048 → Fin 64 → ℝ) (k : ℕ) (h : k < 2048) (q : Fin 64) : rAt r k q = r ⟨k, h⟩ q := dif_pos h

/-- The result: per row the coordinate sums of S divided by 4096, summed over the rows and divided by 2048. -/
def T (r : Fin 2048 → Fin 64 → ℝ) : ℝ :=
  (∑ i : Fin 2048, (∑ d : Fin 64, S r i d) / 4096) / 2048

/-- The same number in the other arrangement: each S divided by 2048, negated, halved, summed over d, negated,
    summed over i and divided by 2048. -/
theorem T_eq_neg_form (r : Fin 2048 → Fin 64 → ℝ) :
    (∑ i : Fin 2048, -(∑ d : Fin 64, (-(S r i d / 2048)) / 2)) / 2048 = T r := by
  unfold T
  congr 1
  refine Finset.sum_congr rfl fun i _ => ?_
  rw [← Finset.sum_neg_distrib, Finset.sum_div]
  refine Finset.sum_congr rfl fun d _ => ?_
  ring

end Cert.Spec

end
-- ==== Proof.KernelIdealBlocks.lean ====
/-
  The two input windows' blocks as rows of the argument array, at the ideal values: at grid point t the first window
  holds rows 128·(t / 16) … 128·(t / 16) + 127 and the second rows 128·(t % 16) … 128·(t % 16) + 127.
-/
import proofs.«123066_j14422500180352_1_alg».proof.Proof.KernelIdealRuns
import proofs.«123066_j14422500180352_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first window's block index at point t: block row t / 16, block column 0. -/
theorem idx_facts0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)

/-- The second window's block index at point t: block row t % 16, block column 0. -/
theorem idx_facts1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- The first window's block at point t reads, at (p, q), row 128·(t / 16) + p of the samples. -/
theorem iblk0_at (m : (ℓ : Loc nD τ sig) → Buf (Elt Ideal) ℓ) (c : Dev nD) (r : Fin 2048 → Fin 64 → ℝ)
    (hm : ∀ (p : Fin 2048) (q : Fin 64), m ((c : Thread nD τ).loc main_arg0) (ValueIdx.ix2 p q) = ((r p q : ℝ) : EReal))
    (t : Fin cfg0.N) (p : Fin 128) (q : Fin 64) :
    iblk m c 0 t (ValueIdx.ix2 p q) = ((Cert.Spec.rAt r (128 * (t.val / 16) + p.val) q : ℝ) : EReal) := by
  obtain ⟨e0, e1⟩ := idx_facts0 t
  have hN : t.val < 256 := lt_of_lt_of_eq t.isLt (show cfg0.N = 256 from N_0)
  have hk : 128 * (t.val / 16) + p.val < 2048 := by have := p.isLt; omega
  rw [Cert.Spec.rAt_of_lt r _ hk q, ← hm ⟨_, hk⟩ q]
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 128 + 1 * p.val = 128 * (t.val / 16) + p.val; rw [e0]; omega
  | ⟨1, _⟩ => show win0_0.index t (1 : Fin 2) * 64 + 1 * q.val = q.val; rw [e1]; omega

/-- The second window's block at point t reads, at (p, q), row 128·(t % 16) + p of the samples. -/
theorem iblk1_at (m : (ℓ : Loc nD τ sig) → Buf (Elt Ideal) ℓ) (c : Dev nD) (r : Fin 2048 → Fin 64 → ℝ)
    (hm : ∀ (p : Fin 2048) (q : Fin 64), m ((c : Thread nD τ).loc main_arg0) (ValueIdx.ix2 p q) = ((r p q : ℝ) : EReal))
    (t : Fin cfg0.N) (p : Fin 128) (q : Fin 64) :
    iblk m c 1 t (ValueIdx.ix2 p q) = ((Cert.Spec.rAt r (128 * (t.val % 16) + p.val) q : ℝ) : EReal) := by
  obtain ⟨e0, e1⟩ := idx_facts1 t
  have hk : 128 * (t.val % 16) + p.val < 2048 := by have := p.isLt; omega
  rw [Cert.Spec.rAt_of_lt r _ hk q, ← hm ⟨_, hk⟩ q]
  unfold iblk
  rw [View.read_apply]
  show V m c main_arg0 _ = m ((c : Thread nD τ).loc main_arg0) _
  rw [V_main_arg0]
  congr 1
  funext a
  apply Fin.ext
  match a with
  | ⟨0, _⟩ => show win0_1.index t (0 : Fin 2) * 128 + 1 * p.val = 128 * (t.val % 16) + p.val; rw [e0]; omega
  | ⟨1, _⟩ => show win0_1.index t (1 : Fin 2) * 64 + 1 * q.val = q.val; rw [e1]; omega

end Cert.KernelIdeal.Hand

end
-- ==== Proof.KernelIdealPieces.lean ====
/-
  What each case of the body leaves, as the payloads: at the first point of a row the accumulator holds the accumulation
  step applied to the zero block, at a later point the step applied to what the point before left, and at the last point
  of a row the result window holds the mean of the accumulator just written.
-/
import proofs.«123066_j14422500180352_1_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a store at the origin of a rank-2 buffer are all zero. -/
theorem hz2 : (![0, 0] : Fin 2 → Nat) = fun _ => 0 := funext fun a => by fin_cases a <;> rfl

/-- A later point that is not the last of its row: the accumulator holds the step applied to what it held. -/
theorem sout0_B_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : ¬cond0_1 i) (x0 x1 xs0 : Vec F S128x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S128x64) hz2]

/-- The first point of a row: the accumulator is reset to the zero block and holds the step applied to it. -/
theorem sout0_A_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : cond0_0 i) (hc1 : ¬cond0_1 i) (x0 x1 : Vec F S128x64 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x64) hz2, View.readCov_unit_zero (S := S128x64) _ hz2]
  simp only [View.readAt_eq_ld, harg2.read_unread, harg3.read_unread, View.ld_unit_zero (S := S128x64) hz2]

/-- The last point of a row: the accumulator holds the step applied to what it held. -/
theorem sout0_C_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i) (x0 x1 xs0 : Vec F S128x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S128x64) hz2]

/-- The last point of a row: the result window holds the mean of the accumulator just written. -/
theorem out0_C_2_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x64 .f32) (harg5 : arg5.IsWhole) (hc0 : ¬cond0_0 i) (hc1 : cond0_1 i) (x0 x1 xs0 : Vec F S128x64 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readCov_unit_zero (S := S128x64) _ hz2, View.readAt_eq_ld, harg2.read_unread, harg3.read_unread, harg5.read_unread, View.ld_unit_zero (S := S128x64) hz2]

end Cert.KernelIdeal.Hand

end
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.LibMidAxis.lean ====
/-
  A unit axis in the middle, and broadcasts along a middle or a leading axis, read at an index: the layout facts an
  outer sum `a[:, None, :] + b[None, :, :]` meets.

  * `addMid_apply`: an [a, b] matrix viewed as [a, 1, b] reads, at (p, 0, q), the matrix at (p, q);
  * `bcastMid_apply`: an [a, 1, b] array broadcast to [a, c, b] reads, at (p, u, q), the array at (p, 0, q);
  * `bcastLead_apply`: a [1, b, c] array broadcast to [a, b, c] reads, at (p, u, q), the array at (0, u, q);
  * `bcastLead2_apply`: a [1, 1, c] array broadcast to [a, b, c] reads, at (p, u, q), the array at (0, 0, q).
  A shape cast keeps the row-major position; a broadcast reads the operand at zero on its unit axes.
-/
import Idealize.ShloMosaic.Lib.Pipeline.Value
import Idealize.ShloMosaic.Lib.ValueIdx

namespace Cert.LibMidAxis

open Idealize.ShloMosaic Idealize.ShloMosaic.ValueIdx

/-- An [a, b] matrix viewed as [a, 1, b] reads, at (p, 0, q), the matrix at (p, q). -/
theorem addMid_apply {α : Type} {a b : ℕ} (x : (⟨2, ![a, b]⟩ : Shape).Idx → α)
    (h : (⟨2, ![a, b]⟩ : Shape).ShapeCasts ⟨3, ![a, 1, b]⟩) (p : Fin a) (q : Fin b) :
    shapeCast ⟨3, ![a, 1, b]⟩ x h (ix3 p (0 : Fin 1) q) = x (ix2 p q) :=
  shapeCast_apply x h _ _ (by
    rw [Shape.rowMajor_val_three, Shape.rowMajor_val_two]
    show p.val * b + q.val = (p.val * 1 + 0) * b + q.val
    rw [Nat.mul_one, Nat.add_zero])

/-- An [a, 1, b] array broadcast to [a, c, b] reads, at (p, u, q), the array at (p, 0, q), whatever `u`. -/
theorem bcastMid_apply {α : Type} {a b c : ℕ} (v : (⟨3, ![a, 1, b]⟩ : Shape).Idx → α)
    (h : (⟨3, ![a, 1, b]⟩ : Shape).Broadcasts ⟨3, ![a, c, b]⟩) (p : Fin a) (u : Fin c) (q : Fin b) :
    broadcastTo ⟨3, ![a, c, b]⟩ v h (ix3 p u q) = v (ix3 p (0 : Fin 1) q) := by
  refine broadcastTo_apply v h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A [1, b, c] array broadcast to [a, b, c] reads, at (p, u, q), the array at (0, u, q), whatever `p`. -/
theorem bcastLead_apply {α : Type} {a b c : ℕ} (v : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ v h (ix3 p u q) = v (ix3 (0 : Fin 1) u q) := by
  refine broadcastTo_apply v h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-- A [1, 1, c] array broadcast to [a, b, c] reads, at (p, u, q), the array at (0, 0, q). -/
theorem bcastLead2_apply {α : Type} {a b c : ℕ} (v : (⟨3, ![1, 1, c]⟩ : Shape).Idx → α)
    (h : (⟨3, ![1, 1, c]⟩ : Shape).Broadcasts ⟨3, ![a, b, c]⟩) (p : Fin a) (u : Fin b) (q : Fin c) :
    broadcastTo ⟨3, ![a, b, c]⟩ v h (ix3 p u q) = v (ix3 (0 : Fin 1) (0 : Fin 1) q) := by
  refine broadcastTo_apply v h (ix3 p u q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.LibMidAxis
-- ==== Proof.KMath.lean ====
/-
  The kernel's three payloads read at an index, at the ideal values, on blocks of real numbers:
  the zero block, the accumulation step (the accumulator plus the sum over j of the squared differences
  (b j q - a p q)^2), and the final mean (the row sum of the accumulator divided by 4096).
-/
import proofs.«123066_j14422500180352_1_alg».proof.Proof.Gen.KernelIdeal.Skeleton
import proofs.«123066_j14422500180352_1_alg».proof.Proof.LibKeepdims
import proofs.«123066_j14422500180352_1_alg».proof.Proof.LibMidAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KMath

open Idealize.ShloMosaic Idealize.ShloMosaic.ValueIdx Cert.KernelIdeal Cert.KernelIdeal.Gen

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The word 0x45800000 denotes the real 4096. -/
theorem ofBits_4096 : Ideal.ofBits .f32 0x45800000#32 = ((4096 : ℝ) : EReal) := by
  simp [Ideal.ofBits, Ideal.ieee, -EReal.coe_mul]; norm_num

/-! ## The zero block -/

/-- The zero block reads zero everywhere. -/
theorem pay1_at (p : Fin 128) (q : Fin 64) : k0_pay1 (F := Ideal) (ix2 p q) = ((0 : ℝ) : EReal) := by
  unfold k0_pay1
  rw [shapeCast_self]
  show Ideal.ofBits .f32 0x00000000#32 = _
  rw [Ideal.ofBits_zero_f32, EReal.coe_zero]

/-! ## The mean -/

/-- The sum over the second axis of a [128, 64] block, read at row p, is the sum of that row's entries. -/
theorem rowSum_at (xs : FVec Ideal S128x64 .f32) (h : S128x64.Reduces [1] S128) (hφ : FKind.Formats .f32)
    (hacc : (0x00000000#32 : BitVec 32) = FKind.add.neutral .f32 hφ) (p : Fin 128) :
    multiReduction (F := Ideal) .add [1] S128 xs 0x00000000#32 h hφ hacc (ix1 p) = ∑ q : Fin 64, xs (ix2 p q) := by
  refine (Ideal.multiReduction_add_single xs _ h hφ hacc (ix1 p)).trans ?_
  refine Finset.sum_congr rfl fun q _ => congrArg xs ?_
  funext d
  match d with
  | ⟨0, _⟩ => rfl
  | ⟨1, _⟩ => rfl

/-- The mean block: the row sum of the accumulator divided by 4096. -/
theorem pay3_at (xs : Vec Ideal S128x64 .f32) (acc : Fin 128 → Fin 64 → ℝ)
    (hs : ∀ p q, xs (ix2 p q) = ((acc p q : ℝ) : EReal)) (p : Fin 128) (z : Fin 1) :
    k0_pay3 (F := Ideal) xs (ix2 p z) = (((∑ q : Fin 64, acc p q) / 4096 : ℝ) : EReal) := by
  unfold k0_pay3
  dsimp only
  rw [divf_apply, broadcast_apply, Keepdims.shapeCast_a_a1_apply]
  refine (congrArg (fun t => Ideal.div t (Ideal.ofBits .f32 0x45800000#32)) (rowSum_at xs _ _ _ p)).trans ?_
  show Ideal.div (∑ q : Fin 64, xs (ix2 p q)) (Ideal.ofBits .f32 0x45800000#32) = _
  rw [ofBits_4096, Ideal.div_coe (by norm_num : (4096 : ℝ) ≠ 0)]
  simp only [hs]
  rw [← coe_sum, ← EReal.coe_mul]
  congr 1
  ring

/-! ## The accumulation step -/

/-- The sum over the middle axis of a [128, 128, 64] array, read at (p, q), is the sum over j of the entries (p, j, q). -/
theorem midSum_at (x : FVec Ideal S128x128x64 .f32) (h : S128x128x64.Reduces [1] S128x64) (hφ : FKind.Formats .f32)
    (hacc : (0x00000000#32 : BitVec 32) = FKind.add.neutral .f32 hφ) (p : Fin 128) (q : Fin 64) :
    multiReduction (F := Ideal) .add [1] S128x64 x 0x00000000#32 h hφ hacc (ix2 p q) = ∑ j : Fin 128, x (ix3 p j q) := by
  refine (Ideal.multiReduction_add_single x _ h hφ hacc (ix2 p q)).trans ?_
  refine Finset.sum_congr rfl fun j _ => congrArg x ?_
  funext d
  match d with
  | ⟨0, _⟩ => rfl
  | ⟨1, _⟩ => rfl
  | ⟨2, _⟩ => rfl

/-- The second operand laid along the middle axis: at (p, j, q) it reads its entry (j, q). -/
theorem rowsAlongMid_at (x1 : Vec Ideal S128x64 .f32) (hc : S128x64.ShapeCasts S1x128x64)
    (hb : S1x128x64.Broadcasts S128x128x64) (p j : Fin 128) (q : Fin 64) :
    broadcastTo S128x128x64 (shapeCast S1x128x64 x1 hc) hb (ix3 p j q) = x1 (ix2 j q) := by
  rw [LibMidAxis.bcastLead_apply, shapeCast_ab_1ab_apply]

/-- The first operand repeated along the middle axis: at (p, j, q) it reads its entry (p, q). -/
theorem rowsAcrossMid_at (x0 : Vec Ideal S128x64 .f32) (hc : S128x64.ShapeCasts S128x1x64)
    (hb : S128x1x64.Broadcasts S128x128x64) (p j : Fin 128) (q : Fin 64) :
    broadcastTo S128x128x64 (shapeCast S128x1x64 x0 hc) hb (ix3 p j q) = x0 (ix2 p q) := by
  rw [LibMidAxis.bcastMid_apply, LibMidAxis.addMid_apply]

/-- The accumulation step: the accumulator plus, at (p, q), the sum over j of the squared differences. -/
theorem pay2_at (x0 x1 xs : Vec Ideal S128x64 .f32) (a b acc : Fin 128 → Fin 64 → ℝ)
    (h0 : ∀ p q, x0 (ix2 p q) = ((a p q : ℝ) : EReal)) (h1 : ∀ p q, x1 (ix2 p q) = ((b p q : ℝ) : EReal))
    (hs : ∀ p q, xs (ix2 p q) = ((acc p q : ℝ) : EReal)) (p : Fin 128) (q : Fin 64) :
    k0_pay2 (F := Ideal) x0 x1 xs (ix2 p q)
      = ((acc p q + ∑ j : Fin 128, (b j q - a p q) * (b j q - a p q) : ℝ) : EReal) := by
  unfold k0_pay2
  dsimp only
  rw [shapeCast_self, addf_apply, hs]
  refine (congrArg (fun t => ((acc p q : ℝ) : EReal) + t) (midSum_at _ _ _ _ p q)).trans ?_
  rw [EReal.coe_add, coe_sum]
  congr 1
  refine Finset.sum_congr rfl fun j _ => ?_
  rw [mulf_apply, subf_apply, rowsAlongMid_at, rowsAcrossMid_at, h0, h1, EReal.coe_mul, EReal.coe_sub]

end Cert.KernelIdeal.KMath

end
-- ==== Proof.KernelIdealAcc.lean ====
/-
  The accumulator point by point over the reals. Point t = 16 ib + jb of the grid adds to the accumulator of row block ib
  the squared differences against the rows of column block jb, from the zero block at jb = 0; so after point t it holds
  the partial sums over the column blocks 0..jb, and at jb = 15 the result window holds their row sums divided by 4096.
-/
import proofs.«123066_j14422500180352_1_alg».proof.Proof.KernelIdealPieces
import proofs.«123066_j14422500180352_1_alg».proof.Proof.KMath
import proofs.«123066_j14422500180352_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The accumulator over the reals after the first n column blocks of row block ib: at (p, q) the sum over the rows j
    of those blocks of the squared differences (r j q - r (128 ib + p) q)^2. -/
def accR (r : Fin 2048 → Fin 64 → ℝ) (ib : ℕ) (n : ℕ) (p : Fin 128) (q : Fin 64) : ℝ :=
  ∑ jb ∈ Finset.range n, ∑ jj : Fin 128,
    (Cert.Spec.rAt r (128 * jb + jj.val) q - Cert.Spec.rAt r (128 * ib + p.val) q)
      * (Cert.Spec.rAt r (128 * jb + jj.val) q - Cert.Spec.rAt r (128 * ib + p.val) q)

theorem accR_succ (r : Fin 2048 → Fin 64 → ℝ) (ib n : ℕ) (p : Fin 128) (q : Fin 64) :
    accR r ib (n + 1) p q = accR r ib n p q + ∑ jj : Fin 128,
      (Cert.Spec.rAt r (128 * n + jj.val) q - Cert.Spec.rAt r (128 * ib + p.val) q)
        * (Cert.Spec.rAt r (128 * n + jj.val) q - Cert.Spec.rAt r (128 * ib + p.val) q) := by
  unfold accR
  rw [Finset.sum_range_succ]

theorem accR_zero (r : Fin 2048 → Fin 64 → ℝ) (ib : ℕ) (p : Fin 128) (q : Fin 64) : accR r ib 0 p q = 0 := by
  unfold accR
  rw [Finset.sum_range_zero]

section Acc

variable (m : (ℓ : Loc nD τ sig) → Buf (Elt Ideal) ℓ) (c : Dev nD) (r : Fin 2048 → Fin 64 → ℝ)
  (h0 : ∀ (t : Fin cfg0.N) (p : Fin 128) (q : Fin 64),
    iblk m c 0 t (ix2 p q) = ((Cert.Spec.rAt r (128 * (t.val / 16) + p.val) q : ℝ) : EReal))
  (h1 : ∀ (t : Fin cfg0.N) (p : Fin 128) (q : Fin 64),
    iblk m c 1 t (ix2 p q) = ((Cert.Spec.rAt r (128 * (t.val % 16) + p.val) q : ℝ) : EReal))

include h0 h1 in
/-- The accumulator after each point, over the reals. -/
theorem acc_at_aux : ∀ (n : ℕ) (t : Fin cfg0.N), t.val = n → ∀ (p : Fin 128) (q : Fin 64),
    (outsAt0 m c t.val t.isLt).2 (ix2 p q) = ((accR r (t.val / 16) (t.val % 16 + 1) p q : ℝ) : EReal) := by
  intro n
  induction n using Nat.strong_induction_on with
  | _ n ih =>
    intro t ht p q
    have hN : t.val < 256 := lt_of_lt_of_eq t.isLt (show cfg0.N = 256 from N_0)
    by_cases hm0 : t.val % 16 = 0
    · have hm1 : ¬t.val % 16 = 15 := by omega
      rw [outsAt0_A m c t hm0 hm1]
      dsimp only
      refine (congrFun (sout0_A_0_eq (F := Ideal) c (grid0.coords t) (ms0_0 t) (hs0_0 t) (ms0_1 t) (hs0_1 t) (ms0_2 t) (hs0_2 t) scM0_0 (Memref.isWhole_whole _) ((hcond0_0 t).mpr hm0) (fun h => hm1 ((hcond0_1 t).mp h)) (iblk m c 0 t) (iblk m c 1 t)) (ix2 p q)).trans ?_
      refine (KMath.pay2_at (iblk m c 0 t) (iblk m c 1 t) (k0_pay1 (F := Ideal))
        (fun p q => Cert.Spec.rAt r (128 * (t.val / 16) + p.val) q)
        (fun p q => Cert.Spec.rAt r (128 * (t.val % 16) + p.val) q)
        (fun _ _ => 0) (h0 t) (h1 t) KMath.pay1_at p q).trans ?_
      rw [hm0, accR_succ, accR_zero]
    · have hz : t.val ≠ 0 := fun e => hm0 (by rw [e])
      have hprev := ih (t.val - 1) (by omega) ⟨t.val - 1, Nat.lt_of_le_of_lt (Nat.sub_le _ _) t.isLt⟩ rfl
      have e1 : (t.val - 1) / 16 = t.val / 16 := by omega
      have e2 : (t.val - 1) % 16 + 1 = t.val % 16 := by omega
      dsimp only at hprev
      rw [e1, e2] at hprev
      by_cases hm1 : t.val % 16 = 15
      · rw [outsAt0_C m c t hm0 hm1]
        dsimp only
        refine (congrFun (sout0_C_0_eq (F := Ideal) c (grid0.coords t) (ms0_0 t) (hs0_0 t) (ms0_1 t) (hs0_1 t) (ms0_2 t) (hs0_2 t) scM0_0 (Memref.isWhole_whole _) (fun h => hm0 ((hcond0_0 t).mp h)) ((hcond0_1 t).mpr hm1) (iblk m c 0 t) (iblk m c 1 t) (outsAt0 m c (t.val - 1) (Nat.lt_of_le_of_lt (Nat.sub_le _ _) t.isLt)).2) (ix2 p q)).trans ?_
        refine (KMath.pay2_at (iblk m c 0 t) (iblk m c 1 t) (outsAt0 m c (t.val - 1) (Nat.lt_of_le_of_lt (Nat.sub_le _ _) t.isLt)).2
          (fun p q => Cert.Spec.rAt r (128 * (t.val / 16) + p.val) q)
          (fun p q => Cert.Spec.rAt r (128 * (t.val % 16) + p.val) q)
          (fun p q => accR r (t.val / 16) (t.val % 16) p q) (h0 t) (h1 t) hprev p q).trans ?_
        rw [accR_succ]
      · rw [outsAt0_B m c t hm0 hm1]
        dsimp only
        refine (congrFun (sout0_B_0_eq (F := Ideal) c (grid0.coords t) (ms0_0 t) (hs0_0 t) (ms0_1 t) (hs0_1 t) (ms0_2 t) (hs0_2 t) scM0_0 (Memref.isWhole_whole _) (fun h => hm0 ((hcond0_0 t).mp h)) (fun h => hm1 ((hcond0_1 t).mp h)) (iblk m c 0 t) (iblk m c 1 t) (outsAt0 m c (t.val - 1) (Nat.lt_of_le_of_lt (Nat.sub_le _ _) t.isLt)).2) (ix2 p q)).trans ?_
        refine (KMath.pay2_at (iblk m c 0 t) (iblk m c 1 t) (outsAt0 m c (t.val - 1) (Nat.lt_of_le_of_lt (Nat.sub_le _ _) t.isLt)).2
          (fun p q => Cert.Spec.rAt r (128 * (t.val / 16) + p.val) q)
          (fun p q => Cert.Spec.rAt r (128 * (t.val % 16) + p.val) q)
          (fun p q => accR r (t.val / 16) (t.val % 16) p q) (h0 t) (h1 t) hprev p q).trans ?_
        rw [accR_succ]

include h0 h1 in
/-- The accumulator after point t holds, at (p, q), the partial sum over the column blocks up to this one. -/
theorem acc_at (t : Fin cfg0.N) (p : Fin 128) (q : Fin 64) :
    (outsAt0 m c t.val t.isLt).2 (ix2 p q) = ((accR r (t.val / 16) (t.val % 16 + 1) p q : ℝ) : EReal) :=
  acc_at_aux m c r h0 h1 t.val t rfl p q

include h0 h1 in
/-- The result window after the last point of a row holds the row sums of the full accumulator divided by 4096. -/
theorem out_at (t : Fin cfg0.N) (ht : t.val % 16 = 15) (p : Fin 128) (z : Fin 1) :
    (outsAt0 m c t.val t.isLt).1 (ix2 p z)
      = (((∑ q : Fin 64, accR r (t.val / 16) 16 p q) / 4096 : ℝ) : EReal) := by
  have hm0 : ¬t.val % 16 = 0 := by omega
  have hs : ∀ (p : Fin 128) (q : Fin 64),
      k0_pay2 (F := Ideal) (iblk m c 0 t) (iblk m c 1 t) (outsAt0 m c (t.val - 1) (Nat.lt_of_le_of_lt (Nat.sub_le _ _) t.isLt)).2 (ix2 p q)
        = ((accR r (t.val / 16) 16 p q : ℝ) : EReal) := by
    intro p q
    have e := acc_at m c r h0 h1 t p q
    rw [outsAt0_C m c t hm0 ht] at e
    dsimp only at e
    rw [sout0_C_0_eq (F := Ideal) c (grid0.coords t) (ms0_0 t) (hs0_0 t) (ms0_1 t) (hs0_1 t) (ms0_2 t) (hs0_2 t) scM0_0 (Memref.isWhole_whole _) (fun h => hm0 ((hcond0_0 t).mp h)) ((hcond0_1 t).mpr ht) (iblk m c 0 t) (iblk m c 1 t) (outsAt0 m c (t.val - 1) (Nat.lt_of_le_of_lt (Nat.sub_le _ _) t.isLt)).2] at e
    rw [ht] at e
    exact e
  rw [outsAt0_C m c t hm0 ht]
  dsimp only
  refine (congrFun (out0_C_2_eq (F := Ideal) c (grid0.coords t) (ms0_0 t) (hs0_0 t) (ms0_1 t) (hs0_1 t) (ms0_2 t) (hs0_2 t) scM0_0 (Memref.isWhole_whole _) (fun h => hm0 ((hcond0_0 t).mp h)) ((hcond0_1 t).mpr ht) (iblk m c 0 t) (iblk m c 1 t) (outsAt0 m c (t.val - 1) (Nat.lt_of_le_of_lt (Nat.sub_le _ _) t.isLt)).2) (ix2 p z)).trans ?_
  exact KMath.pay3_at _ (fun p q => accR r (t.val / 16) 16 p q) hs p z

end Acc

end Cert.KernelIdeal.Hand

end
-- ==== Proof.KTail.lean ====
/-
  The host tail of the program at the ideal values: a [2048, 1] array of reals summed over both axes from zero
  and divided by 2048; and a sum over 2048 indices regrouped as 16 blocks of 128.
-/
import proofs.«123066_j14422500180352_1_alg».proof.Proof.Gen.KernelIdeal
import proofs.«123066_j14422500180352_1_alg».proof.Proof.KMath
import Idealize.ShloMosaic.Lib.ValueIdx
import Idealize.ShloMosaic.PureOps.Ideal.Laws
import Mathlib.Logic.Equiv.Fin.Basic
import Mathlib.Algebra.BigOperators.Fin

noncomputable section

open scoped BigOperators

namespace Cert.KernelIdeal.KTail

open Idealize.ShloMosaic Idealize.ShloMosaic.ValueIdx Cert.KernelIdeal Cert.KernelIdeal.Gen

/-- A sum over 2048 indices regrouped as 16 blocks of 128. -/
theorem sum_blocks (f : Fin 2048 → ℝ) :
    ∑ jb : Fin 16, ∑ jj : Fin 128, f ⟨128 * jb.val + jj.val, by have := jb.isLt; have := jj.isLt; omega⟩
      = ∑ j : Fin 2048, f j := by
  refine (Fintype.sum_prod_type (fun x : Fin 16 × Fin 128 =>
    f ⟨128 * x.1.val + x.2.val, by have := x.1.isLt; have := x.2.isLt; omega⟩)).symm.trans ?_
  refine Fintype.sum_equiv (finProdFinEquiv (m := 16) (n := 128)) _ _ fun x => congrArg f (Fin.ext ?_)
  show 128 * x.1.val + x.2.val = x.2.val + 128 * x.1.val
  omega

/-- The word 0x45000000 denotes the real 2048. -/
theorem ofBits_2048 : Ideal.ofBits .f32 0x45000000#32 = ((2048 : ℝ) : EReal) := by
  simp [Ideal.ofBits, Ideal.ieee, -EReal.coe_mul]; norm_num

/-- The host tail, for any evidence of its two shape facts: the [2048, 1] array of reals g summed over both axes
    from zero and divided by 2048. -/
theorem tail_value_of (hr : S2048x1.ReducesTo [0, 1] S_) (hu : 0 < S_.numel) (X : Vec Ideal S2048x1 .f32) (g : Fin 2048 → ℝ)
    (hX : ∀ (i : Fin 2048) (z : Fin 1), X (ix2 i z) = ((g i : ℝ) : EReal)) :
    Host.divf (F := Ideal)
        (Host.reduceAdd (F := Ideal) X (constant (F := Ideal) S_ .f32 0x00000000#32) hr hu)
        (constant (F := Ideal) S_ .f32 0x45000000#32)
      = fun _ => (((∑ i : Fin 2048, g i) / 2048 : ℝ) : EReal) := by
  funext k
  show Ideal.div (Ideal.hostReduceAdd hr X (Ideal.ofBits .f32 0x00000000#32) k)
      (Ideal.ofBits .f32 0x45000000#32) = _
  rw [Ideal.hostReduceAdd_total hr (fun b => b.elim0) X _ k, Ideal.ofBits_zero_f32, zero_add, sum_idx2]
  simp only [hX, Fin.sum_univ_one]
  rw [ofBits_2048, Ideal.div_coe (by norm_num : (2048 : ℝ) ≠ 0), ← KMath.coe_sum, ← EReal.coe_mul]
  congr 1
  ring

/-- The host tail at the program's own shape facts. -/
theorem tail_value (X : Vec Ideal S2048x1 .f32) (g : Fin 2048 → ℝ)
    (hX : ∀ (i : Fin 2048) (z : Fin 1), X (ix2 i z) = ((g i : ℝ) : EReal)) :
    Host.divf (F := Ideal)
        (Host.reduceAdd (F := Ideal) X (constant (F := Ideal) S_ .f32 0x00000000#32)
          Facts₀.reducesTo_S2048x1_S_d0_1 Facts₀.h_S_)
        (constant (F := Ideal) S_ .f32 0x45000000#32)
      = fun _ => (((∑ i : Fin 2048, g i) / 2048 : ℝ) : EReal) :=
  tail_value_of _ _ X g hX

end Cert.KernelIdeal.KTail

end
-- ==== Proof.KernelIdealValue.lean ====
/-
  The kernel's scalar at the ideal values: the result array after the run holds, at row i, the coordinate sums of
  S r i divided by 4096, and the host tail sums the rows and divides by 2048, which is T r.
-/
import proofs.«123066_j14422500180352_1_alg».proof.Proof.KernelIdealOut
import proofs.«123066_j14422500180352_1_alg».proof.Proof.KernelIdealBlocks
import proofs.«123066_j14422500180352_1_alg».proof.Proof.KernelIdealAcc
import proofs.«123066_j14422500180352_1_alg».proof.Proof.KTail
import proofs.«123066_j14422500180352_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- The accumulated sum over all sixteen blocks of 128 rows is the sum over all 2048 rows. -/
theorem accR_full (r : Fin 2048 → Fin 64 → ℝ) (ib : ℕ) (p : Fin 128) (q : Fin 64) :
    accR r ib 16 p q
      = ∑ j : Fin 2048, (r j q - Cert.Spec.rAt r (128 * ib + p.val) q) * (r j q - Cert.Spec.rAt r (128 * ib + p.val) q) := by
  unfold accR
  rw [Finset.sum_range]
  refine Eq.trans ?_ (KTail.sum_blocks fun j =>
    (r j q - Cert.Spec.rAt r (128 * ib + p.val) q) * (r j q - Cert.Spec.rAt r (128 * ib + p.val) q))
  refine Finset.sum_congr rfl fun jb _ => Finset.sum_congr rfl fun jj _ => ?_
  have hk : 128 * jb.val + jj.val < 2048 := by have := jb.isLt; have := jj.isLt; omega
  rw [Cert.Spec.rAt_of_lt r _ hk q]

/-- What the result array holds at row k, as a function of the natural row number. -/
def rowVal (r : Fin 2048 → Fin 64 → ℝ) (k : ℕ) : ℝ :=
  (∑ q : Fin 64, ∑ j : Fin 2048, (r j q - Cert.Spec.rAt r k q) * (r j q - Cert.Spec.rAt r k q)) / 4096

/-- At a row of the array it is the coordinate sums of S divided by 4096. -/
theorem rowVal_eq (r : Fin 2048 → Fin 64 → ℝ) (i : Fin 2048) : rowVal r i.val = (∑ d : Fin 64, Cert.Spec.S r i d) / 4096 := by
  unfold rowVal Cert.Spec.S
  congr 1
  refine Finset.sum_congr rfl fun d _ => ?_
  rw [Cert.Spec.rAt_of_lt r i.val i.isLt d]

/-- The result array after the run: at row i the coordinate sums of S r i divided by 4096. -/
theorem out_rows (m : (ℓ : Loc nD τ sig) → Buf (Elt Ideal) ℓ) (c : Dev nD) (r : Fin 2048 → Fin 64 → ℝ)
    (hm : ∀ (p : Fin 2048) (q : Fin 64), m ((c : Thread nD τ).loc main_arg0) (ValueIdx.ix2 p q) = ((r p q : ℝ) : EReal))
    (i : Fin 2048) (z : Fin 1) :
    (dats (F := Ideal) m 0 c).arrAt 2 cfg0.N (ValueIdx.ix2 i z) = (((∑ d : Fin 64, Cert.Spec.S r i d) / 4096 : ℝ) : EReal) := by
  have hfl : ∀ (t : Fin cfg0.N), t.val % 16 = 15 → ∀ (p : Fin 128) (z : Fin 1),
      (outsAt0 m c t.val t.isLt).1 (ValueIdx.ix2 p z) = ((rowVal r (128 * (t.val / 16) + p.val) : ℝ) : EReal) := by
    intro t ht p z
    rw [out_at m c r (iblk0_at m c r hm) (iblk1_at m c r hm) t ht p z]
    unfold rowVal
    simp only [accR_full]
  rw [out_array m c (rowVal r) hfl i z, rowVal_eq]

/-- The kernel's scalar: the host tail of the result array is T r. -/
theorem kernel_scalar (m : (ℓ : Loc nD τ sig) → Buf (Elt Ideal) ℓ) (c : Dev nD) (r : Fin 2048 → Fin 64 → ℝ)
    (hm : ∀ (p : Fin 2048) (q : Fin 64), m ((c : Thread nD τ).loc main_arg0) (ValueIdx.ix2 p q) = ((r p q : ℝ) : EReal)) :
    Host.divf (F := Ideal)
        (Host.reduceAdd (F := Ideal) ((dats (F := Ideal) m 0 c).arrAt 2 cfg0.N) (constant (F := Ideal) S_ .f32 0x00000000#32)
          Facts₀.reducesTo_S2048x1_S_d0_1 Facts₀.h_S_)
        (constant (F := Ideal) S_ .f32 0x45000000#32)
      = fun _ => ((Cert.Spec.T r : ℝ) : EReal) :=
  KTail.tail_value ((dats (F := Ideal) m 0 c).arrAt 2 cfg0.N) (fun i => (∑ d : Fin 64, Cert.Spec.S r i d) / 4096)
    (out_rows m c r hm)

end Cert.KernelIdeal.Hand

end
-- ==== Proof.RefValue.lean ====
/-
  The reference program's result over the reals. When every entry of the input is the image of a real number, the
  scalar the reference computes is the image of T r: the squared differences are summed over j, divided by 2048, negated,
  halved, summed over d, negated, summed over i and divided by 2048, each step staying among the reals.
-/
import proofs.«123066_j14422500180352_1_alg».proof.Proof.Gen.ReferenceIdeal.Read
import proofs.«123066_j14422500180352_1_alg».proof.Proof.Gen.ReferenceIdeal.Run
import proofs.«123066_j14422500180352_1_alg».proof.Proof.Spec
import proofs.«123066_j14422500180352_1_alg».proof.Proof.LibKeepdims
import Idealize.ShloMosaic.Lib.ValueIdx
import Idealize.ShloMosaic.PureOps.Ideal
import Idealize.ShloMosaic.PureOps.Ideal.Laws
import Mathlib.Data.EReal.Basic
import Mathlib.Data.EReal.Operations
import Mathlib.Tactic.NormNum

open scoped BigOperators

noncomputable section

namespace Cert.ReferenceIdeal.RefValue

open Idealize.ShloMosaic Idealize.ShloMosaic.ValueIdx Cert.ReferenceIdeal Cert.ReferenceIdeal.Gen Cert.ReferenceIdeal.Read

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern 0x45000000 is the real 2048. -/
theorem ofBits_2048 : Ideal.ofBits .f32 0x45000000#32 = ((2048 : ℝ) : EReal) := by
  simp [Ideal.ofBits, Ideal.ieee, -EReal.coe_mul]; norm_num

/-- The f32 pattern 0x40000000 is the real 2. -/
theorem ofBits_two : Ideal.ofBits .f32 0x40000000#32 = ((2 : ℝ) : EReal) := by
  simp [Ideal.ofBits, Ideal.ieee, -EReal.coe_mul]; norm_num

/-- The quotient of a real by a nonzero real, taken among the extended reals, is the real quotient. -/
theorem div_coe_coe (a : ℝ) {y : ℝ} (hy : y ≠ 0) : Ideal.div (a : EReal) (y : EReal) = ((a / y : ℝ) : EReal) := by
  rw [Ideal.div_coe hy, ← EReal.coe_mul, mul_one_div]

section Stages

variable (x : (⟨S2048x64, .f32⟩ : BufTy).Contents (Elt Ideal)) (r : Fin 2048 → Fin 64 → ℝ)
  (hx : ∀ (p : Fin 2048) (q : Fin 64), x (ix2 p q) = ((r p q : ℝ) : EReal))
include hx

/-- The squared difference at (i, j, d). -/
theorem v5_at (i j : Fin 2048) (d : Fin 64) :
    val_main_v5 (F := Ideal) x (ix3 i j d) = (((r j d - r i d) * (r j d - r i d) : ℝ) : EReal) := by
  have e2 : idx_main_v0 (idx_main_v2 (ix3 i j d : S2048x2048x64.Idx)) = ix2 j d := by
    funext a; match a with | ⟨0, _⟩ => rfl | ⟨1, _⟩ => rfl
  have e3 : idx_main_v1 (idx_main_v3 (ix3 i j d : S2048x2048x64.Idx)) = ix2 i d := by
    funext a; match a with | ⟨0, _⟩ => rfl | ⟨1, _⟩ => rfl
  rw [val_main_v5_apply, val_main_v4_apply, val_main_v2_apply, val_main_v0_apply, val_main_v3_apply,
    val_main_v1_apply, e2, e3, hx, hx]
  rw [Ideal.subf_def, Ideal.mulf_def, ← EReal.coe_sub, ← EReal.coe_mul]

/-- The sum over j of the squared differences at (i, d) is S r i d. -/
theorem v6_at (i : Fin 2048) (d : Fin 64) :
    val_main_v6 (F := Ideal) x (ix2 i d) = ((Cert.Spec.S r i d : ℝ) : EReal) := by
  rw [val_main_v6_apply, val_main_cst_apply, Ideal.ofBits_def, Ideal.ofBits_zero_f32, zero_add]
  unfold Cert.Spec.S
  rw [coe_sum]
  refine Finset.sum_congr rfl fun k _ => ?_
  have e : idx_main_v6 (ix2 i d : S2048x64.Idx) k = ix3 i k d := by
    funext a; match a with | ⟨0, _⟩ => rfl | ⟨1, _⟩ => rfl | ⟨2, _⟩ => rfl
  rw [e, v5_at x r hx]

/-- Divided by 2048, negated and halved. -/
theorem v11_at (i : Fin 2048) (d : Fin 64) :
    val_main_v11 (F := Ideal) x (ix2 i d) = (((-(Cert.Spec.S r i d / 2048)) / 2 : ℝ) : EReal) := by
  rw [val_main_v11_apply, val_main_v9_apply, val_main_v8_apply, val_main_v7_apply, val_main_v10_apply,
    val_main_cst_0_apply, val_main_cst_1_apply, v6_at x r hx]
  rw [Ideal.hostDivf_def, Ideal.hostDivf_def, Ideal.hostNegf_def, Ideal.negf_def, Ideal.ofBits_def, Ideal.ofBits_def,
    ofBits_2048, ofBits_two, div_coe_coe _ (by norm_num), ← EReal.coe_neg, div_coe_coe _ (by norm_num)]

/-- Summed over d and negated. -/
theorem v13_at (i : Fin 2048) :
    val_main_v13 (F := Ideal) x (ix1 i) = ((-(∑ d : Fin 64, (-(Cert.Spec.S r i d / 2048)) / 2) : ℝ) : EReal) := by
  rw [val_main_v13_apply, val_main_v12_apply, val_main_cst_2_apply, Ideal.ofBits_def, Ideal.ofBits_zero_f32, zero_add,
    Ideal.hostNegf_def, Ideal.negf_def, EReal.coe_neg, coe_sum]
  congr 1
  refine Finset.sum_congr rfl fun k _ => ?_
  have e : idx_main_v12 (ix1 i : S2048.Idx) k = ix2 i k := by
    funext a; match a with | ⟨0, _⟩ => rfl | ⟨1, _⟩ => rfl
  rw [e, v11_at x r hx]

end Stages

open Idealize.ShloMosaic Idealize.ShloMosaic.ValueIdx in
theorem ref_value (x : (⟨Cert.ReferenceIdeal.S2048x64, .f32⟩ : BufTy).Contents (Elt Ideal)) (r : Fin 2048 → Fin 64 → ℝ)
    (hx : ∀ (p : Fin 2048) (q : Fin 64), x (ix2 p q) = ((r p q : ℝ) : EReal)) :
    Cert.ReferenceIdeal.Read.val_main_v15 (F := Ideal) x = fun _ => ((Cert.Spec.T r : ℝ) : EReal) := by
  funext i
  rw [val_main_v15_apply, val_main_v14_apply, Idealize.ShloMosaic.Keepdims.sum_idx1, val_main_cst_3_apply, val_main_cst_4_apply, Ideal.ofBits_def, Ideal.ofBits_def,
    Ideal.ofBits_zero_f32, zero_add, Ideal.hostDivf_def, ofBits_2048,
    Finset.sum_congr rfl (fun k _ => v13_at x r hx k), ← coe_sum, div_coe_coe _ (by norm_num),
    Cert.Spec.T_eq_neg_form]

end Cert.ReferenceIdeal.RefValue

end
-- ==== Proof.Finite.lean ====
/-
  Finite inputs are real: when the finiteness predicate holds of an array of extended reals, every entry is
  the image of a real number.
-/
import proofs.«123066_j14422500180352_1_alg».proof.Pre_finite_inputs
import proofs.«123066_j14422500180352_1_alg».proof.Proof.Gen.Pre_finite_inputs
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx

/-- The rank-0 index space has one point. -/
instance : Subsingleton Cert.Pre_finite_inputs.S_.Idx := ⟨fun a b => funext fun d => d.elim0⟩

/-- The f32 pattern of positive infinity is the top extended real. -/
theorem ofBits_inf : Ideal.ofBits .f32 0x7F800000#32 = ⊤ := by
  simp [Ideal.ofBits, Ideal.ieee]

/-- An extended real whose absolute value max x (-x) lies strictly below the top is a real number. -/
theorem real_of_abs_lt_top (a : EReal) (h : max a (-a) < ⊤) : ∃ r : ℝ, a = (r : EReal) := by
  induction a using EReal.rec with
  | bot => simp at h
  | coe r => exact ⟨r, rfl⟩
  | top => simp at h

theorem finite_of_pre (x : FVec Ideal Cert.Pre_finite_inputs.S2048x64 .f32)
    (h : Cert.Pre_finite_inputs.fn (F := Ideal) x = fun _ => 1#1) :
    ∃ r : Fin 2048 → Fin 64 → ℝ, ∀ (p : Fin 2048) (q : Fin 64), x (ValueIdx.ix2 p q) = ((r p q : ℝ) : EReal) := by
  have h0 := congrFun h ValueIdx.ix0
  dsimp only [Cert.Pre_finite_inputs.fn] at h0
  have key : ∀ (p : Fin 2048) (q : Fin 64), ∃ r : ℝ, x (ix2 p q) = (r : EReal) := by
    intro p q
    have e := Host.reduce_andi_all _ _ _ _ _ h0 (ix2 p q)
    rw [cmpf_apply, broadcastInDim_scalar_apply, constant_apply, ofBits_inf] at e
    change Ideal.cmp .olt (max (x (ix2 p q)) (-(x (ix2 p q)))) ⊤ = 1#1 at e
    refine real_of_abs_lt_top _ ?_
    by_contra hn
    simp [Ideal.cmp, hn] at e
  choose r hr using key
  exact ⟨r, hr⟩

end Cert.Finite

end
-- ==== Proof.lean ====
/-
  The certificate's claims. The kernel computes, for samples y of shape [2048, 64], the mean over i of
  (Σ_d Σ_j (y[j,d] − y[i,d])²) / 4096 on a 16 × 16 grid of 128-row blocks: a scratch accumulator is reset at the first
  block of a row of the grid, gains the squared differences summed over the second block's rows at every point, and at
  the row's last point its sums over d, divided by 4096, are written to the [2048, 1] result; the host then sums that
  array and divides by 2048. The reference computes the same number as the mean over i of −Σ_d (−(Σ_j (…)² / 2048) / 2).
  Under the precondition every input is a real number, so both are the one real number Cert.Spec.T of the samples:
  the kernel's side by the accumulator's contents point by point and the regrouping of a sum over 2048 rows as 16
  blocks of 128, the reference's side operation by operation; the two arrangements differ only by exact divisions by
  powers of two and two negations. The three programs run and leave the argument array unchanged; the ideal pass
  rewrote nothing, so the idealization claim is trivial.
-/
import proofs.«123066_j14422500180352_1_alg».proof.Defs
import proofs.«123066_j14422500180352_1_alg».proof.Proof.Gen.Kernel
import proofs.«123066_j14422500180352_1_alg».proof.Proof.Gen.KernelIdeal
import proofs.«123066_j14422500180352_1_alg».proof.Proof.Gen.ReferenceIdeal
import proofs.«123066_j14422500180352_1_alg».proof.Proof.Gen.Pre_finite_inputs
import proofs.«123066_j14422500180352_1_alg».proof.Proof.KernelLaunch
import proofs.«123066_j14422500180352_1_alg».proof.Proof.KernelIdealLaunch
import proofs.«123066_j14422500180352_1_alg».proof.Proof.KernelIdealValue
import proofs.«123066_j14422500180352_1_alg».proof.Proof.RefValue
import proofs.«123066_j14422500180352_1_alg».proof.Proof.Finite

noncomputable section

namespace Cert.Proof

open Idealize.ShloMosaic Idealize.ShloMosaic.TcCoe Idealize.SL.Sem

/-- The word-level kernel runs and leaves its argument unchanged. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the real number T of the samples in their result buffer. -/
theorem algebraic : Cert.algebraic_KernelIdeal_ReferenceIdeal := by
  intro m ρ m' ρ' hpre hagree
  choose r hr using fun c : Dev Cert.KernelIdeal.nD => Cert.Finite.finite_of_pre _ (hpre c)
  refine ⟨fun c => fun _ => ((Cert.Spec.T (r c) : ℝ) : EReal), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Hand.Wfin_v2]
    exact Cert.KernelIdeal.Hand.kernel_scalar m c (r c) (hr c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, hagree c]
    exact Cert.ReferenceIdeal.RefValue.ref_value _ (r c) (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
